-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S512x784 : Shape := ⟨2, ![512, 784]⟩
abbrev S256x512 : Shape := ⟨2, ![256, 512]⟩
abbrev S10x256 : Shape := ⟨2, ![10, 256]⟩
abbrev S784 : Shape := ⟨1, ![784]⟩
abbrev S512 : Shape := ⟨1, ![512]⟩
abbrev S256 : Shape := ⟨1, ![256]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S256x512 : S_.BroadcastsInDim S256x512 (![] : Fin 0 → Fin S256x512.rank)
  reducesTo_S256x512_S_d0_1 : S256x512.ReducesTo [0, 1] S_
  bcast_S_S10x256 : S_.BroadcastsInDim S10x256 (![] : Fin 0 → Fin S10x256.rank)
  reducesTo_S10x256_S_d0_1 : S10x256.ReducesTo [0, 1] S_
  bcast_S_S784 : S_.BroadcastsInDim S784 (![] : Fin 0 → Fin S784.rank)
  reducesTo_S784_S_d0 : S784.ReducesTo [0] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S784 .f32) (main_arg5 : FVec F S512 .f32) (main_arg6 : FVec F S256 .f32) (main_v13 : IVec S_ 1) (main_v16 : IVec S10x256 1) : IVec S_ 1 :=
  let main_c_5 : IVec S_ 1 := constantI S_ 1 1#1
  let main_v17 : IVec S_ 1 := (fun x v => Host.reduce IntOp.andi x v reducesTo_S10x256_S_d0_1 h_S_) main_v16 main_c_5
  let main_v18 : IVec S_ 1 := andi main_v13 main_v17
  let main_v19 : FVec F S784 .f32 := Host.absf main_arg4
  let main_cst_6 : FVec F S_ .f32 := constant S_ .f32 0x7F800000#32
  let main_v20 : FVec F S784 .f32 := broadcastInDim S784 ![] bcast_S_S784 main_cst_6
  let main_v21 : IVec S784 1 := cmpf .olt main_v19 main_v20
  let main_c_7 : IVec S_ 1 := constantI S_ 1 1#1
  let main_v22 : IVec S_ 1 := (fun x v => Host.reduce IntOp.andi x v reducesTo_S784_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32768x784 .f32) (main_arg1 : FVec F S512x784 .f32) (main_arg2 : FVec F S256x512 .f32) (main_arg3 : FVec F S10x256 .f32) (main_arg4 : FVec F S784 .f32) (main_arg5 : FVec F S512 .f32) (main_arg6 : FVec F S256 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S10x256 .f32 := Host.absf main_arg3
  let main_cst_4 : FVec F S_ .f32 := constant S_ .f32 0x7F800000#32
  let main_v15 : FVec F S10x256 .f32 := broadcastInDim S10x256 ![] bcast_S_S10x256 main_cst_4
  let main_v16 : IVec S10x256 1 := cmpf .olt main_v14 main_v15
  fn_part1 (F := F) main_arg4 main_arg5 main_arg6 main_v13 main_v16
-- ==== Kernel.lean ====
abbrev S32768x784 : Shape := ⟨2, ![32768, 784]⟩
abbrev S512x784 : Shape := ⟨2, ![512, 784]⟩
abbrev S256x512 : Shape := ⟨2, ![256, 512]⟩
abbrev S10x256 : Shape := ⟨2, ![10, 256]⟩
abbrev S784 : Shape := ⟨1, ![784]⟩
abbrev S512 : Shape := ⟨1, ![512]⟩
abbrev S256 : Shape := ⟨1, ![256]⟩
abbrev S_ : Shape := ⟨0, ![]⟩
abbrev S128x256 : Shape := ⟨2, ![128, 256]⟩
abbrev S1 : Shape := ⟨1, ![1]⟩
abbrev S32768x128 : Shape := ⟨2, ![32768, 128]⟩
abbrev S2048x784 : Shape := ⟨2, ![2048, 784]⟩
abbrev S2048x128 : Shape := ⟨2, ![2048, 128]⟩
abbrev S2048x512 : Shape := ⟨2, ![2048, 512]⟩
abbrev S2048x256 : Shape := ⟨2, ![2048, 256]⟩
abbrev S32768x10 : Shape := ⟨2, ![32768, 10]⟩

abbrev nBuf : Space → Nat
  | .hbm => 17
  | .vmem => 7
  | .smem => 0
  | _ => 0

abbrev bufTy : (tb : Table) → Fin (tcTables nBuf tb) → BufTy
  | .hbm, ⟨0, _⟩ => ⟨S32768x784, .f32⟩
  | .hbm, ⟨1, _⟩ => ⟨S512x784, .f32⟩
  | .hbm, ⟨2, _⟩ => ⟨S256x512, .f32⟩
  | .hbm, ⟨3, _⟩ => ⟨S10x256, .f32⟩
  | .hbm, ⟨4, _⟩ => ⟨S784, .f32⟩
  | .hbm, ⟨5, _⟩ => ⟨S512, .f32⟩
  | .hbm, ⟨6, _⟩ => ⟨S256, .f32⟩
  | .hbm, ⟨7, _⟩ => ⟨S512x784, .bf16⟩
  | .hbm, ⟨8, _⟩ => ⟨S256x512, .bf16⟩
  | .hbm, ⟨9, _⟩ => ⟨S_, .f32⟩
  | .hbm, ⟨10, _⟩ => ⟨S128x256, .f32⟩
  | .hbm, ⟨11, _⟩ => ⟨S_, .i32⟩
  | .hbm, ⟨12, _⟩ => ⟨S1, .i32⟩
  | .hbm, ⟨13, _⟩ => ⟨S128x256, .f32⟩
  | .hbm, ⟨14, _⟩ => ⟨S128x256, .bf16⟩
  | .hbm, ⟨15, _⟩ => ⟨S32768x128, .f32⟩
  | .hbm, ⟨16, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S512x784, .bf16⟩
  | .local _ .vmem, ⟨3, _⟩ => ⟨S256x512, .bf16⟩
  | .local _ .vmem, ⟨4, _⟩ => ⟨S128x256, .bf16⟩
  | .local _ .vmem, ⟨5, _⟩ => ⟨S2048x128, .f32⟩
  | .local _ .vmem, ⟨6, _⟩ => ⟨S2048x128, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S128x256 : S_.BroadcastsInDim S128x256 (![] : Fin 0 → Fin S128x256.rank)
  bcast_S_S1 : S_.BroadcastsInDim S1 (![] : Fin 0 → Fin S1.rank)
  inb_S2048x784_S2048x784_0_0 : ∀ a, (![0, 0] : Fin 2 → Nat) a + S2048x784.size a ≤ S2048x784.size a
  h_S2048x784 : 0 < S2048x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x128_S2048x128_0_0 : ∀ a, (![0, 0] : Fin 2 → Nat) a + S2048x128.size a ≤ S2048x128.size a
  h_S2048x128 : 0 < S2048x128.numel
  slices_S32768x128_S32768x10_0_0 : S32768x128.Slices ![0, 0] S32768x10
  scatter_S128x256_S1_S10x256_01_n_0_0_wf : ScatterDims.WF S128x256 S1 S10x256 [0, 1] [] [0] 0
  dot_S2048x784_S512x784_S2048x512_1_1_0_0_n_n_wf : DotDims.WF S2048x784 S512x784 S2048x512 [1] [1] [0] [0] [] []
  dot_S2048x512_S256x512_S2048x256_1_1_0_0_n_n_wf : DotDims.WF S2048x512 S256x512 S2048x256 [1] [1] [0] [0] [] []
  dot_S2048x256_S128x256_S2048x128_1_1_0_0_n_n_wf : DotDims.WF S2048x256 S128x256 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S512x784.size a
  hwx0_1 : ∀ i : grid0.Coords, EltTy.bits .bf16 = 32 ∨ (Rect.block (s := S512x784) S512x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S32768x128.size a
  hwx0_4 : ∀ i : grid0.Coords, EltTy.bits .f32 = 32 ∨ (Rect.block (s := S32768x128) S2048x128.size (cc0_transform_4 i) (hinb0_4 i)).WholeWords (EltTy.packing .f32)

variable [Facts₀]

def scatter_S128x256_S1_S10x256_01_n_0_0 : ScatterDims S128x256 S1 S10x256 where
  updateWindowDims := [0, 1]
  insertedWindowDims := []
  scatterDimsToOperandDims := [0]
  indexVectorDim := 0
  wf := scatter_S128x256_S1_S10x256_01_n_0_0_wf
def dot_S2048x784_S512x784_S2048x512_1_1_0_0_n_n : DotDims S2048x784 S512x784 S2048x512 where
  lhsContracting := [1]
  rhsContracting := [1]
  lhsNonContracting := [0]
  rhsNonContracting := [0]
  lhsBatch := []
  rhsBatch := []
  wf := dot_S2048x784_S512x784_S2048x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x784 : Shape := ⟨2, ![32768, 784]⟩
abbrev S512x784 : Shape := ⟨2, ![512, 784]⟩
abbrev S256x512 : Shape := ⟨2, ![256, 512]⟩
abbrev S10x256 : Shape := ⟨2, ![10, 256]⟩
abbrev S784 : Shape := ⟨1, ![784]⟩
abbrev S512 : Shape := ⟨1, ![512]⟩
abbrev S256 : Shape := ⟨1, ![256]⟩
abbrev S784x512 : Shape := ⟨2, ![784, 512]⟩
abbrev S32768x512 : Shape := ⟨2, ![32768, 512]⟩
abbrev S_ : Shape := ⟨0, ![]⟩
abbrev S512x256 : Shape := ⟨2, ![512, 256]⟩
abbrev S32768x256 : Shape := ⟨2, ![32768, 256]⟩
abbrev S256x10 : Shape := ⟨2, ![256, 10]⟩
abbrev S32768x10 : Shape := ⟨2, ![32768, 10]⟩
abbrev S1x512 : Shape := ⟨2, ![1, 512]⟩
abbrev S1x256 : Shape := ⟨2, ![1, 256]⟩

abbrev nBuf : Space → Nat
  | .hbm => 69
  | .vmem => 0
  | .smem => 0
  | _ => 0

abbrev bufTy : (tb : Table) → Fin (tcTables nBuf tb) → BufTy
  | .hbm, ⟨0, _⟩ => ⟨S32768x784, .f32⟩
  | .hbm, ⟨1, _⟩ => ⟨S512x784, .f32⟩
  | .hbm, ⟨2, _⟩ => ⟨S256x512, .f32⟩
  | .hbm, ⟨3, _⟩ => ⟨S10x256, .f32⟩
  | .hbm, ⟨4, _⟩ => ⟨S784, .f32⟩
  | .hbm, ⟨5, _⟩ => ⟨S512, .f32⟩
  | .hbm, ⟨6, _⟩ => ⟨S256, .f32⟩
  | .hbm, ⟨7, _⟩ => ⟨S784x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S512x256, .f32⟩
  | .hbm, ⟨13, _⟩ => ⟨S32768x256, .f32⟩
  | .hbm, ⟨14, _⟩ => ⟨S_, .f32⟩
  | .hbm, ⟨15, _⟩ => ⟨S32768x256, .f32⟩
  | .hbm, ⟨16, _⟩ => ⟨S32768x256, .f32⟩
  | .hbm, ⟨17, _⟩ => ⟨S256x10, .f32⟩
  | .hbm, ⟨18, _⟩ => ⟨S32768x10, .f32⟩
  | .hbm, ⟨19, _⟩ => ⟨S_, .f32⟩
  | .hbm, ⟨20, _⟩ => ⟨S32768x10, .f32⟩
  | .hbm, ⟨21, _⟩ => ⟨S32768x10, .f32⟩
  | .hbm, ⟨22, _⟩ => ⟨S_, .i32⟩
  | .hbm, ⟨23, _⟩ => ⟨S_, .i32⟩
  | .hbm, ⟨24, _⟩ => ⟨S32768x10, .f32⟩
  | .hbm, ⟨25, _⟩ => ⟨S256x512, .f32⟩
  | .hbm, ⟨26, _⟩ => ⟨S512, .f32⟩
  | .hbm, ⟨27, _⟩ => ⟨S10x256, .f32⟩
  | .hbm, ⟨28, _⟩ => ⟨S256, .f32⟩
  | .hbm, ⟨29, _⟩ => ⟨S_, .i32⟩
  | .hbm, ⟨30, _⟩ => ⟨S_, .i32⟩
  | .hbm, ⟨31, _⟩ => ⟨S32768x512, .f32⟩
  | .hbm, ⟨32, _⟩ => ⟨S32768x256, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S32768x256, .f32⟩
  | .hbm, ⟨53, _⟩ => ⟨S1x256, .f32⟩
  | .hbm, ⟨54, _⟩ => ⟨S32768x256, .f32⟩
  | .hbm, ⟨55, _⟩ => ⟨S32768x256, .f32⟩
  | .hbm, ⟨56, _⟩ => ⟨S_, .f32⟩
  | .hbm, ⟨57, _⟩ => ⟨S32768x256, .f32⟩
  | .hbm, ⟨58, _⟩ => ⟨S32768x256, .f32⟩
  | .hbm, ⟨59, _⟩ => ⟨S32768x256, .f32⟩
  | .hbm, ⟨60, _⟩ => ⟨S_, .f32⟩
  | .hbm, ⟨61, _⟩ => ⟨S32768x256, .f32⟩
  | .hbm, ⟨62, _⟩ => ⟨S32768x256, .f32⟩
  | .hbm, ⟨63, _⟩ => ⟨S32768x256, .f32⟩
  | .hbm, ⟨64, _⟩ => ⟨S_, .f32⟩
  | .hbm, ⟨65, _⟩ => ⟨S32768x256, .f32⟩
  | .hbm, ⟨66, _⟩ => ⟨S32768x256, .f32⟩
  | .hbm, ⟨67, _⟩ => ⟨S_, .i32⟩
  | .hbm, ⟨68, _⟩ => ⟨S_, .i32⟩
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_cst : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call2_cst : Ref sig .tc := ⟨.hbm, 19, rfl⟩
abbrev main_call2_v0 : Ref sig .tc := ⟨.hbm, 20, rfl⟩
abbrev main_v8 : Ref sig .tc := ⟨.hbm, 21, rfl⟩
abbrev main_c : Ref sig .tc := ⟨.hbm, 22, rfl⟩
abbrev main_c_0 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev main_while0c_c_9 : Ref sig .tc := ⟨.hbm, 33, rfl⟩
abbrev main_while0c_v10 : Ref sig .tc := ⟨.hbm, 34, rfl⟩
abbrev main_while0b_call3_c : Ref sig .tc := ⟨.hbm, 35, rfl⟩
abbrev main_while0b_v10_0 : Ref sig .tc := ⟨.hbm, 36, rfl⟩
abbrev main_while0b_call3_v1 : Ref sig .tc := ⟨.hbm, 37, rfl⟩
abbrev main_while0b_call3_v2 : Ref sig .tc := ⟨.hbm, 38, rfl⟩
abbrev main_while0b_call3_v3 : Ref sig .tc := ⟨.hbm, 39, rfl⟩
abbrev main_while0b_call3_v4 : Ref sig .tc := ⟨.hbm, 40, rfl⟩
abbrev main_while0b_call3_call0_cst : Ref sig .tc := ⟨.hbm, 41, rfl⟩
abbrev main_while0b_call3_call0_v0 : Ref sig .tc := ⟨.hbm, 42, rfl⟩
abbrev main_while0b_call3_v5 : Ref sig .tc := ⟨.hbm, 43, rfl⟩
abbrev main_while0b_call3_v6 : Ref sig .tc := ⟨.hbm, 44, rfl⟩
abbrev main_while0b_call3_cst : Ref sig .tc := ⟨.hbm, 45, rfl⟩
abbrev main_while0b_call3_v7 : Ref sig .tc := ⟨.hbm, 46, rfl⟩
abbrev main_while0b_call3_v8 : Ref sig .tc := ⟨.hbm, 47, rfl⟩
abbrev main_while0b_call3_v9 : Ref sig .tc := ⟨.hbm, 48, rfl⟩
abbrev main_while0b_call3_call1_cst : Ref sig .tc := ⟨.hbm, 49, rfl⟩
abbrev main_while0b_call3_call1_v0 : Ref sig .tc := ⟨.hbm, 50, rfl⟩
abbrev main_while0b_v10_1 : Ref sig .tc := ⟨.hbm, 51, rfl⟩
abbrev main_while0b_call3_v11 : Ref sig .tc := ⟨.hbm, 52, rfl⟩
abbrev main_while0b_call3_v12 : Ref sig .tc := ⟨.hbm, 53, rfl⟩
abbrev main_while0b_call3_v13 : Ref sig .tc := ⟨.hbm, 54, rfl⟩
abbrev main_while0b_call3_v14 : Ref sig .tc := ⟨.hbm, 55, rfl⟩
abbrev main_while0b_call3_call2_cst : Ref sig .tc := ⟨.hbm, 56, rfl⟩
abbrev main_while0b_call3_call2_v0 : Ref sig .tc := ⟨.hbm, 57, rfl⟩
abbrev main_while0b_call3_v15 : Ref sig .tc := ⟨.hbm, 58, rfl⟩
abbrev main_while0b_call3_v16 : Ref sig .tc := ⟨.hbm, 59, rfl⟩
abbrev main_while0b_call3_cst_0 : Ref sig .tc := ⟨.hbm, 60, rfl⟩
abbrev main_while0b_call3_v17 : Ref sig .tc := ⟨.hbm, 61, rfl⟩
abbrev main_while0b_call3_v18 : Ref sig .tc := ⟨.hbm, 62, rfl⟩
abbrev main_while0b_call3_v19 : Ref sig .tc := ⟨.hbm, 63, rfl⟩
abbrev main_while0b_call3_call3_cst : Ref sig .tc := ⟨.hbm, 64, rfl⟩
abbrev main_while0b_call3_call3_v0 : Ref sig .tc := ⟨.hbm, 65, rfl⟩
abbrev main_while0b_v10_2 : Ref sig .tc := ⟨.hbm, 66, rfl⟩
abbrev main_while0b_c_9 : Ref sig .tc := ⟨.hbm, 67, rfl⟩
abbrev main_while0b_v11 : Ref sig .tc := ⟨.hbm, 68, rfl⟩

abbrev nD : Nat := 1
abbrev τ : Topo := Topo.v7x

variable {F : FTy → Type} [FloatOps F]

abbrev main_while0_count : Scf.Loop 32 := ⟨0#32, 15#32, 1#32⟩

class Facts₀ : Prop where
  transposes_S512x784_S784x512_1_0 : S512x784.Transposes [1, 0] S784x512
  bcast_S_S32768x512 : S_.BroadcastsInDim S32768x512 (![] : Fin 0 → Fin S32768x512.rank)
  transposes_S256x512_S512x256_1_0 : S256x512.Transposes [1, 0] S512x256
  bcast_S_S32768x256 : S_.BroadcastsInDim S32768x256 (![] : Fin 0 → Fin S32768x256.rank)
  transposes_S10x256_S256x10_1_0 : S10x256.Transposes [1, 0] S256x10
  bcast_S_S32768x10 : S_.BroadcastsInDim S32768x10 (![] : Fin 0 → Fin S32768x10.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x784_S784x512_S32768x512_1_0_0_1_n_n_wf : DotDims.WF S32768x784 S784x512 S32768x512 [1] [0] [0] [1] [] []
  dot_S32768x512_S512x256_S32768x256_1_0_0_1_n_n_wf : DotDims.WF S32768x512 S512x256 S32768x256 [1] [0] [0] [1] [] []
  dot_S32768x256_S256x10_S32768x10_1_0_0_1_n_n_wf : DotDims.WF S32768x256 S256x10 S32768x10 [1] [0] [0] [1] [] []
  dot_S32768x256_S256x512_S32768x512_1_0_0_1_n_n_wf : DotDims.WF S32768x256 S256x512 S32768x512 [1] [0] [0] [1] [] []
  dot_S32768x10_S10x256_S32768x256_1_0_0_1_n_n_wf : DotDims.WF S32768x10 S10x256 S32768x256 [1] [0] [0] [1] [] []
  main_while0_ok : main_while0_count.OK

variable [Facts₀]

def dot_S32768x784_S784x512_S32768x512_1_0_0_1_n_n : DotDims S32768x784 S784x512 S32768x512 where
  lhsContracting := [1]
  rhsContracting := [0]
  lhsNonContracting := [0]
  rhsNonContracting := [1]
  lhsBatch := []
  rhsBatch := []
  wf := dot_S32768x784_S784x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x10_S32768x10_1_0_0_1_n_n : DotDims S32768x256 S256x10 S32768x10 where
  lhsContracting := [1]
  rhsContracting := [0]
  lhsNonContracting := [0]
  rhsNonContracting := [1]
  lhsBatch := []
  rhsBatch := []
  wf := dot_S32768x256_S256x10_S32768x10_1_0_0_1_n_n_wf
def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf
def dot_S32768x10_S10x256_S32768x256_1_0_0_1_n_n : DotDims S32768x10 S10x256 S32768x256 where
  lhsContracting := [1]
  rhsContracting := [0]
  lhsNonContracting := [0]
  rhsNonContracting := [1]
  lhsBatch := []
  rhsBatch := []
  wf := dot_S32768x10_S10x256_S32768x256_1_0_0_1_n_n_wf

class Facts : Prop extends Facts₀ where

variable [Facts]
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.KernelBlock.lean ====
/-
  What the kernel's body stores, from the blocks it loads.

  At one grid point the body loads a block `x` of 2048 rows of the input and the three weight matrices whole, and
  stores

      relu (relu (relu (x · w0ᵀ) · w1ᵀ) · w2ᵀ)

  where each product is a matrix product accumulated into a zero splat (the weight's second axis contracted), each
  `relu` a maximum with the zero splat, the changes of float format between the layers the identity at the ideal
  values, and the shape casts of the weights casts to their own shape.  So the stored block is three dense layers
  of the loaded blocks, each a plain sum over the contracted axis.
-/
import proofs.«417671_j47390669144433_3_alg».proof.Proof.Gen.KernelIdeal.Skeleton
import proofs.«417671_j47390669144433_3_alg».proof.Proof.LibDenseLayer

noncomputable section

namespace Cert.KernelIdeal.KValue

open Cert.KernelIdeal Cert.KernelIdeal.Gen Cert.Lib
open Idealize.ShloMosaic Idealize.ShloMosaic.ValueIdx

/-! ### The three contractions' operand indices, coordinate by coordinate -/

abbrev K1 := dot_S2048x784_S512x784_S2048x512_1_1_0_0_n_n
abbrev K2 := dot_S2048x512_S256x512_S2048x256_1_1_0_0_n_n
abbrev K3 := dot_S2048x256_S128x256_S2048x128_1_1_0_0_n_n

theorem K1_rank : K1.contr.rank = 1 := rfl
theorem K2_rank : K2.contr.rank = 1 := rfl
theorem K3_rank : K3.contr.rank = 1 := rfl
theorem K1_size : K1.contr.size ⟨0, by decide⟩ = 784 := rfl
theorem K2_size : K2.contr.size ⟨0, by decide⟩ = 512 := rfl
theorem K3_size : K3.contr.size ⟨0, by decide⟩ = 256 := rfl

theorem K1_l0 (j : S2048x512.Idx) (q : K1.contr.Idx) : (K1.lhsIdx j q 0).val = (j 0).val := by
  simp [DotDims.lhsIdx, K1, dot_S2048x784_S512x784_S2048x512_1_1_0_0_n_n]; rfl
theorem K1_l1 (j : S2048x512.Idx) (q : K1.contr.Idx) : (K1.lhsIdx j q 1).val = (q ⟨0, by decide⟩).val := by
  simp [DotDims.lhsIdx, K1, dot_S2048x784_S512x784_S2048x512_1_1_0_0_n_n]; rfl
theorem K1_r0 (j : S2048x512.Idx) (q : K1.contr.Idx) : (K1.rhsIdx j q 0).val = (j 1).val := by
  simp [DotDims.rhsIdx, K1, dot_S2048x784_S512x784_S2048x512_1_1_0_0_n_n]; rfl
theorem K1_r1 (j : S2048x512.Idx) (q : K1.contr.Idx) : (K1.rhsIdx j q 1).val = (q ⟨0, by decide⟩).val := by
  simp [DotDims.rhsIdx, K1, dot_S2048x784_S512x784_S2048x512_1_1_0_0_n_n]; rfl

theorem K2_l0 (j : S2048x256.Idx) (q : K2.contr.Idx) : (K2.lhsIdx j q 0).val = (j 0).val := by
  simp [DotDims.lhsIdx, K2, dot_S2048x512_S256x512_S2048x256_1_1_0_0_n_n]; rfl
theorem K2_l1 (j : S2048x256.Idx) (q : K2.contr.Idx) : (K2.lhsIdx j q 1).val = (q ⟨0, by decide⟩).val := by
  simp [DotDims.lhsIdx, K2, dot_S2048x512_S256x512_S2048x256_1_1_0_0_n_n]; rfl
theorem K2_r0 (j : S2048x256.Idx) (q : K2.contr.Idx) : (K2.rhsIdx j q 0).val = (j 1).val := by
  simp [DotDims.rhsIdx, K2, dot_S2048x512_S256x512_S2048x256_1_1_0_0_n_n]; rfl
theorem K2_r1 (j : S2048x256.Idx) (q : K2.contr.Idx) : (K2.rhsIdx j q 1).val = (q ⟨0, by decide⟩).val := by
  simp [DotDims.rhsIdx, K2, dot_S2048x512_S256x512_S2048x256_1_1_0_0_n_n]; rfl

theorem K3_l0 (j : S2048x128.Idx) (q : K3.contr.Idx) : (K3.lhsIdx j q 0).val = (j 0).val := by
  simp [DotDims.lhsIdx, K3, dot_S2048x256_S128x256_S2048x128_1_1_0_0_n_n]; rfl
theorem K3_l1 (j : S2048x128.Idx) (q : K3.contr.Idx) : (K3.lhsIdx j q 1).val = (q ⟨0, by decide⟩).val := by
  simp [DotDims.lhsIdx, K3, dot_S2048x256_S128x256_S2048x128_1_1_0_0_n_n]; rfl
theorem K3_r0 (j : S2048x128.Idx) (q : K3.contr.Idx) : (K3.rhsIdx j q 0).val = (j 1).val := by
  simp [DotDims.rhsIdx, K3, dot_S2048x256_S128x256_S2048x128_1_1_0_0_n_n]; rfl
theorem K3_r1 (j : S2048x128.Idx) (q : K3.contr.Idx) : (K3.rhsIdx j q 1).val = (q ⟨0, by decide⟩).val := by
  simp [DotDims.rhsIdx, K3, dot_S2048x256_S128x256_S2048x128_1_1_0_0_n_n]; rfl

/-- The stored block is the three dense layers of the loaded blocks. -/
theorem pay_eq (x0 : Vec Ideal S2048x784 .f32) (x1 : Vec Ideal S512x784 .bf16) (x2 : Vec Ideal S256x512 .bf16)
    (x3 : Vec Ideal S128x256 .bf16) :
    k0_pay1 (F := Ideal) x0 x1 x2 x3 = denseRelu (denseRelu (denseRelu x0 x1) x2) x3 := by
  show maximumf (matmul K3 none
      (maximumf (matmul K2 none
        (maximumf (matmul K1 none x0 (shapeCast S512x784 x1 shapeCasts_S512x784_S512x784) (constant S2048x512 .f32 0x00000000#32))
          (broadcast S2048x512 (Scalar.ofBits (F := Ideal) .f32 0x00000000#32)))
        (shapeCast S256x512 x2 shapeCasts_S256x512_S256x512) (constant S2048x256 .f32 0x00000000#32))
        (broadcast S2048x256 (Scalar.ofBits (F := Ideal) .f32 0x00000000#32)))
      (shapeCast S128x256 x3 shapeCasts_S128x256_S128x256) (constant S2048x128 .f32 0x00000000#32))
      (broadcast S2048x128 (Scalar.ofBits (F := Ideal) .f32 0x00000000#32)) = _
  rw [shapeCast_self, shapeCast_self, shapeCast_self,
    matmul_relu_eq K1 K1_rank K1_size K1_l0 K1_l1 K1_r0 K1_r1,
    matmul_relu_eq K2 K2_rank K2_size K2_l0 K2_l1 K2_r0 K2_r1,
    matmul_relu_eq K3 K3_rank K3_size K3_l0 K3_l1 K3_r0 K3_r1]

end Cert.KernelIdeal.KValue

end
-- ==== Proof.LibScatterSet.lean ====
/-
  A replacing scatter read at one entry.

  The host's scatter walks the update's entries in row-major order; the entry `j` of the update lands on the
  operand's entry `resultIdx? j` (when that is inside the operand) and, with the body "return the update",
  overwrites it.  Read at one entry `i` of the operand:

  * if no update entry lands on `i`, the result holds the operand's entry;
  * if exactly one update entry `j₀` lands on `i`, the result holds the update's entry `j₀` — whatever was written
    before it at `i` is overwritten, and nothing after it touches `i`.

  Then the one case a zero-padding of rows is: a block of `E` rows written whole into an operand of `N ≥ E` rows at
  the one start index whose row component is `0` (window axes both axes, no inserted axis).  Entry `(e, k)` of the
  block lands on entry `(e, k)` of the operand, so the first `E` rows of the result are the block and the other
  rows are the operand's.
-/
import Idealize.ShloMosaic.PureOps.Ideal
import Idealize.ShloMosaic.Lib.ValueIdx

namespace Cert.Lib

open Idealize.ShloMosaic Idealize.ShloMosaic.ValueIdx

/-! ## A fold of steps that each touch at most one entry, read at one entry -/

section Fold
variable {ι κ α : Type}

/-- If a step that does not land on `i` (`¬ P n`) leaves the value at `i`, steps none of which lands on `i` leave it. -/
theorem foldl_kept_at (step : (κ → α) → ι → κ → α) (P : ι → Prop) (i : κ)
    (hne : ∀ r n, ¬ P n → step r n i = r i) :
    ∀ (l : List ι) (x : κ → α), (∀ n ∈ l, ¬ P n) → l.foldl step x i = x i
  | [], _, _ => rfl
  | n :: l, x, h => by
    rw [List.foldl_cons, foldl_kept_at step P i hne l _ fun n' hn' => h n' (List.mem_cons_of_mem _ hn'),
      hne x n (h n List.mem_cons_self)]

/-- If moreover a step that lands on `i` leaves there the update's value `v n`, and exactly one step `n₀` of a
    duplicate-free walk lands on `i`, the value at `i` after the walk is `v n₀`. -/
theorem foldl_set_at (step : (κ → α) → ι → κ → α) (P : ι → Prop) (v : ι → α) (i : κ)
    (hne : ∀ r n, ¬ P n → step r n i = r i) (heq : ∀ r n, P n → step r n i = v n)
    (l : List ι) (hl : l.Nodup) (x : κ → α) (n₀ : ι) (hn₀ : n₀ ∈ l) (h₀ : P n₀) (hu : ∀ n, P n → n = n₀) :
    l.foldl step x i = v n₀ := by
  obtain ⟨l₁, l₂, rfl⟩ := List.append_of_mem hn₀
  have hnot : n₀ ∉ l₂ := (List.nodup_cons.mp hl.of_append_right).1
  rw [List.foldl_append, List.foldl_cons,
    foldl_kept_at step P i hne l₂ _ fun n hn e => hnot (hu n e ▸ hn), heq _ n₀ h₀]

end Fold

/-! ## The host's scatter -/

section Scatter
variable {s si u : Shape} {w : Nat} {α : Type}

/-- No entry of the update lands on `i`: the operand's entry stays. -/
theorem scatter_apply_of_forall_ne (d : ScatterDims s si u) (f : α → α → α) (x : s.Idx → α) (idx : IVec si w)
    (upd : u.Idx → α) (i : s.Idx) (h : ∀ j, d.resultIdx? j idx ≠ some i) : Host.scatter d f x idx upd i = x i := by
  unfold Host.scatter
  refine foldl_kept_at _ (fun n => d.resultIdx? (u.rowMajor.symm n) idx = some i) i (fun r n hn => ?_) _ x fun n _ => h _
  try dsimp only
  generalize d.resultIdx? (u.rowMajor.symm n) idx = o at hn
  cases o with
  | none => rfl
  | some i' => exact if_neg fun e => hn (by rw [e])

/-- With the body "return the update": exactly the entry `j₀` of the update lands on `i`, so the result holds the
    update's entry `j₀`. -/
theorem scatter_set_apply_of_unique (d : ScatterDims s si u) (x : s.Idx → α) (idx : IVec si w) (upd : u.Idx → α)
    (i : s.Idx) (j₀ : u.Idx) (h₀ : d.resultIdx? j₀ idx = some i) (hu : ∀ j, d.resultIdx? j idx = some i → j = j₀) :
    Host.scatter d (fun _ b => b) x idx upd i = upd j₀ := by
  unfold Host.scatter
  have key := foldl_set_at
    (fun (r : s.Idx → α) (n : Fin u.numel) =>
      match d.resultIdx? (u.rowMajor.symm n) idx with
      | some i₁ => fun i' => if i' = i₁ then (fun _ b => b) (r i₁) (upd (u.rowMajor.symm n)) else r i'
      | none => r)
    (fun n => d.resultIdx? (u.rowMajor.symm n) idx = some i) (fun n => upd (u.rowMajor.symm n)) i
    (fun r n hn => by
      try dsimp only
      generalize d.resultIdx? (u.rowMajor.symm n) idx = o at hn
      cases o with
      | none => rfl
      | some i' => exact if_neg fun e => hn (by rw [e]))
    (fun r n hn => by
      try dsimp only
      generalize d.resultIdx? (u.rowMajor.symm n) idx = o at hn
      cases o with
      | none => exact absurd hn (by simp)
      | some i' =>
        obtain rfl : i' = i := Option.some.inj hn
        exact if_pos rfl)
    (List.finRange u.numel) (List.nodup_finRange _) x (u.rowMajor j₀) (List.mem_finRange _)
    (by show d.resultIdx? (u.rowMajor.symm (u.rowMajor j₀)) idx = some i; rw [Equiv.symm_apply_apply]; exact h₀)
    (fun n hn => (Equiv.symm_apply_eq _).mp (hu _ hn))
  refine key.trans ?_
  show upd (u.rowMajor.symm (u.rowMajor j₀)) = upd j₀
  rw [Equiv.symm_apply_apply]

end Scatter

/-! ## A block of rows written whole at row `0` -/

/-- The dimension numbers of a whole `E × C` block written into an `N × C` operand at one start index with one
    component, the row: both axes of the update are window axes, no axis is inserted. -/
abbrev blockScatterDims (N E C : Nat)
    (wf : ScatterDims.WF ⟨2, ![N, C]⟩ ⟨1, ![1]⟩ ⟨2, ![E, C]⟩ [0, 1] [] [0] 0) :
    ScatterDims ⟨2, ![N, C]⟩ ⟨1, ![1]⟩ ⟨2, ![E, C]⟩ where
  updateWindowDims := [0, 1]
  insertedWindowDims := []
  scatterDimsToOperandDims := [0]
  indexVectorDim := 0
  wf := wf

section Block
variable {N E C w : Nat} (wf : ScatterDims.WF ⟨2, ![N, C]⟩ ⟨1, ![1]⟩ ⟨2, ![E, C]⟩ [0, 1] [] [0] 0)
  (idx : IVec ⟨1, ![1]⟩ w)

/-- On the row axis the entry `(e, k)` of the block lands at the start row plus `e`. -/
theorem blockScatter_pos0 (e : Fin E) (k : Fin C) :
    (blockScatterDims N E C wf).start (ix2 e k) idx (0 : Fin 2) + ((blockScatterDims N E C wf).window (ix2 e k) (0 : Fin 2) : ℤ)
      = (idx (ix1 (0 : Fin 1))).toInt + (e.val : ℤ) := by
  have hw : (blockScatterDims N E C wf).window (ix2 e k) (0 : Fin 2) = e.val := by
    have h0 : (0 : Fin 2) ∈ (blockScatterDims N E C wf).sKept := show (0 : Fin 2) ∈ ([0, 1] : List (Fin 2)) from by decide
    unfold ScatterDims.window
    rw [dif_pos h0]
    rfl
  have hs : (blockScatterDims N E C wf).start (ix2 e k) idx (0 : Fin 2) = (idx (ix1 (0 : Fin 1))).toInt := by
    unfold ScatterDims.start
    rw [dif_pos (show (0 : Fin 2) ∈ ([0] : List (Fin 2)) from by decide)]
    refine congrArg (fun t => (idx t).toInt) (funext fun b => ?_)
    have hb : b = 0 := Subsingleton.elim _ _
    subst hb
    rfl
  rw [hw, hs]

/-- On the column axis it lands at `k`. -/
theorem blockScatter_pos1 (e : Fin E) (k : Fin C) :
    (blockScatterDims N E C wf).start (ix2 e k) idx (1 : Fin 2) + ((blockScatterDims N E C wf).window (ix2 e k) (1 : Fin 2) : ℤ)
      = (k.val : ℤ) := by
  have hw : (blockScatterDims N E C wf).window (ix2 e k) (1 : Fin 2) = k.val := by
    have h1 : (1 : Fin 2) ∈ (blockScatterDims N E C wf).sKept := show (1 : Fin 2) ∈ ([0, 1] : List (Fin 2)) from by decide
    unfold ScatterDims.window
    rw [dif_pos h1]
    rfl
  have hs : (blockScatterDims N E C wf).start (ix2 e k) idx (1 : Fin 2) = 0 := by
    unfold ScatterDims.start
    rw [dif_neg (show (1 : Fin 2) ∉ ([0] : List (Fin 2)) from by decide)]
  rw [hw, hs, zero_add]

/-- With the start row `0`, entry `(e, b)` of the block lands on `(i, k)` exactly when `e = i` and `b = k`. -/
theorem blockScatter_resultIdx (hz : (idx (ix1 (0 : Fin 1))).toInt = 0) (hEN : E ≤ N) (e : Fin E) (b : Fin C)
    (i : Fin N) (k : Fin C) :
    (blockScatterDims N E C wf).resultIdx? (ix2 e b) idx = some (ix2 i k) ↔ e.val = i.val ∧ b = k := by
  have p0 := blockScatter_pos0 wf idx e b
  have p1 := blockScatter_pos1 wf idx e b
  rw [hz, zero_add] at p0
  have he : e.val < N := lt_of_lt_of_le e.isLt hEN
  have hb : ∀ a : Fin 2, 0 ≤ (blockScatterDims N E C wf).start (ix2 e b) idx a + ((blockScatterDims N E C wf).window (ix2 e b) a : ℤ)
      ∧ (blockScatterDims N E C wf).start (ix2 e b) idx a + ((blockScatterDims N E C wf).window (ix2 e b) a : ℤ)
        < (((⟨2, ![N, C]⟩ : Shape).size a : ℕ) : ℤ) := by
    intro a
    match a with
    | ⟨0, _⟩ =>
      show 0 ≤ (blockScatterDims N E C wf).start (ix2 e b) idx (0 : Fin 2) + ((blockScatterDims N E C wf).window (ix2 e b) (0 : Fin 2) : ℤ)
        ∧ (blockScatterDims N E C wf).start (ix2 e b) idx (0 : Fin 2) + ((blockScatterDims N E C wf).window (ix2 e b) (0 : Fin 2) : ℤ) < ((N : ℕ) : ℤ)
      rw [p0]
      exact ⟨by omega, by exact_mod_cast he⟩
    | ⟨1, _⟩ =>
      show 0 ≤ (blockScatterDims N E C wf).start (ix2 e b) idx (1 : Fin 2) + ((blockScatterDims N E C wf).window (ix2 e b) (1 : Fin 2) : ℤ)
        ∧ (blockScatterDims N E C wf).start (ix2 e b) idx (1 : Fin 2) + ((blockScatterDims N E C wf).window (ix2 e b) (1 : Fin 2) : ℤ) < ((C : ℕ) : ℤ)
      rw [p1]
      exact ⟨by omega, by exact_mod_cast b.isLt⟩
  unfold ScatterDims.resultIdx?
  rw [dif_pos hb]
  constructor
  · intro h
    have hf := Option.some.inj h
    have h0 : ((blockScatterDims N E C wf).start (ix2 e b) idx (0 : Fin 2)
        + ((blockScatterDims N E C wf).window (ix2 e b) (0 : Fin 2) : ℤ)).toNat = i.val :=
      congrArg (fun f => (f (0 : Fin 2)).val) hf
    have h1 : ((blockScatterDims N E C wf).start (ix2 e b) idx (1 : Fin 2)
        + ((blockScatterDims N E C wf).window (ix2 e b) (1 : Fin 2) : ℤ)).toNat = k.val :=
      congrArg (fun f => (f (1 : Fin 2)).val) hf
    rw [p0] at h0
    rw [p1] at h1
    exact ⟨by omega, Fin.ext (by omega)⟩
  · rintro ⟨h0, rfl⟩
    congr 1
    funext a
    refine Fin.ext ?_
    match a with
    | ⟨0, _⟩ =>
      show ((blockScatterDims N E C wf).start (ix2 e b) idx (0 : Fin 2) + ((blockScatterDims N E C wf).window (ix2 e b) (0 : Fin 2) : ℤ)).toNat = i.val
      rw [p0]; omega
    | ⟨1, _⟩ =>
      show ((blockScatterDims N E C wf).start (ix2 e b) idx (1 : Fin 2) + ((blockScatterDims N E C wf).window (ix2 e b) (1 : Fin 2) : ℤ)).toNat = b.val
      rw [p1]; omega

/-- THE BLOCK WRITTEN AT ROW `0`, READ IN ITS ROWS: row `q < E` of the result is row `q` of the block. -/
theorem scatter_block_apply_of_lt {α : Type} (hz : (idx (ix1 (0 : Fin 1))).toInt = 0) (hEN : E ≤ N)
    (x : (⟨2, ![N, C]⟩ : Shape).Idx → α) (upd : (⟨2, ![E, C]⟩ : Shape).Idx → α) (q : Fin N) (hq : q.val < E) (k : Fin C) :
    Host.scatter (blockScatterDims N E C wf) (fun _ b => b) x idx upd (ix2 q k) = upd (ix2 (⟨q.val, hq⟩ : Fin E) k) := by
  refine scatter_set_apply_of_unique _ x idx upd (ix2 q k) (ix2 (⟨q.val, hq⟩ : Fin E) k)
    ((blockScatter_resultIdx wf idx hz hEN _ _ q k).mpr ⟨rfl, rfl⟩) fun j hj => ?_
  obtain ⟨e, b, rfl⟩ : ∃ (e : Fin E) (b : Fin C), j = ix2 e b := ⟨j 0, j 1, eq_ix2 j⟩
  obtain ⟨h0, rfl⟩ := (blockScatter_resultIdx wf idx hz hEN e b q k).mp hj
  exact congrArg (fun e' => ix2 e' b) (Fin.ext h0)

/-- … and a row `q ≥ E` of the result is the operand's. -/
theorem scatter_block_apply_of_ge {α : Type} (hz : (idx (ix1 (0 : Fin 1))).toInt = 0) (hEN : E ≤ N)
    (f : α → α → α) (x : (⟨2, ![N, C]⟩ : Shape).Idx → α) (upd : (⟨2, ![E, C]⟩ : Shape).Idx → α) (q : Fin N) (hq : E ≤ q.val)
    (k : Fin C) : Host.scatter (blockScatterDims N E C wf) f x idx upd (ix2 q k) = x (ix2 q k) := by
  refine scatter_apply_of_forall_ne _ f x idx upd (ix2 q k) fun j hj => ?_
  obtain ⟨e, b, rfl⟩ : ∃ (e : Fin E) (b : Fin C), j = ix2 e b := ⟨j 0, j 1, eq_ix2 j⟩
  have := ((blockScatter_resultIdx wf idx hz hEN e b q k).mp hj).1
  have := e.isLt
  omega

end Block

end Cert.Lib
-- ==== Proof.KernelHost.lean ====
/-
  What the region finds in its four input arrays.

  Before the region the host converts `W0` and `W1` to another float format — the identity at the ideal values —
  and builds the padded third weight: a 128 × 256 array of zeros into which the 10 × 256 matrix `W2` is written whole
  at row 0 (a scatter with the one start index 0 and the body "return the update"), converted likewise.  So the
  region finds the input as launched, `W0` and `W1` themselves, and an array whose first ten rows are `W2`'s.
  (Its other rows are zero; nothing below reads them, since only the first ten columns of the kernel's output
  are kept.)
-/
import proofs.«417671_j47390669144433_3_alg».proof.Proof.Gen.KernelIdeal.Frame
import proofs.«417671_j47390669144433_3_alg».proof.Proof.LibScatterSet

noncomputable section

namespace Cert.KernelIdeal.KValue

open Cert.KernelIdeal Cert.KernelIdeal.Gen Cert.Lib
open Idealize.ShloMosaic Idealize.ShloMosaic.TcCoe Idealize.ShloMosaic.Tactic Idealize.ShloMosaic.ValueIdx
open Idealize.SL.Sem

variable (m : (ℓ : Loc nD τ sig) → Buf (Elt Ideal) ℓ)

/-- The four arrays the region's input windows stage, as the region finds them, at their literal types. -/
abbrev xArr (c : Dev nD) : Vec Ideal S32768x784 .f32 := V m c main_arg0
abbrev w0Arr (c : Dev nD) : Vec Ideal S512x784 .bf16 := V m c main_v0
abbrev w1Arr (c : Dev nD) : Vec Ideal S256x512 .bf16 := V m c main_v1
abbrev w2Arr (c : Dev nD) : Vec Ideal S128x256 .bf16 := V m c main_v5

/-- The input is as launched. -/
theorem xArr_eq (c : Dev nD) : (xArr m c : S32768x784.Idx → EReal) = m ((c : Thread nD τ).loc main_arg0) :=
  V_main_arg0 m c

/-- The first weight, converted: itself. -/
theorem w0Arr_eq (c : Dev nD) : (w0Arr m c : S512x784.Idx → EReal) = m ((c : Thread nD τ).loc main_arg1) := by
  show (StableHlo.after hostOps0 (fun b => m (c, b)) (Proc.devRef .tc main_v0) : S512x784.Idx → EReal) = _
  after_results
  rfl

/-- The second weight, converted: itself. -/
theorem w1Arr_eq (c : Dev nD) : (w1Arr m c : S256x512.Idx → EReal) = m ((c : Thread nD τ).loc main_arg2) := by
  show (StableHlo.after hostOps0 (fun b => m (c, b)) (Proc.devRef .tc main_v1) : S256x512.Idx → EReal) = _
  after_results
  rfl

/-- The padded third weight is the zero array with `W2` written at row 0, converted. -/
theorem w2Arr_eq (c : Dev nD) : (w2Arr m c : S128x256.Idx → EReal)
    = Host.scatter scatter_S128x256_S1_S10x256_01_n_0_0 (fun _ b => b)
        (broadcastInDim S128x256 ![] bcast_S_S128x256 (constant (F := Ideal) S_ .f32 0x00000000#32))
        (broadcastInDim S1 ![] bcast_S_S1 (constantI S_ 32 0#32))
        (m ((c : Thread nD τ).loc main_arg3)) := by
  show (StableHlo.after hostOps0 (fun b => m (c, b)) (Proc.devRef .tc main_v5) : S128x256.Idx → EReal) = _
  after_results
  rfl

/-- Its first ten rows are `W2`'s. -/
theorem w2Arr_apply (c : Dev nD) (q : Fin 128) (hq : q.val < 10) (k : Fin 256) :
    w2Arr m c (ix2 q k) = m ((c : Thread nD τ).loc main_arg3) (ix2 (⟨q.val, hq⟩ : Fin 10) k) := by
  rw [w2Arr_eq]
  exact scatter_block_apply_of_lt (N := 128) (E := 10) (C := 256) scatter_S128x256_S1_S10x256_01_n_0_0_wf
    (broadcastInDim S1 ![] bcast_S_S1 (constantI S_ 32 0#32)) (by decide) (by decide) _ _ q hq k

end Cert.KernelIdeal.KValue

end
-- ==== Proof.KernelArray.lean ====
/-
  What the kernel leaves in its result.

  The grid has 16 points; point `t` stages rows `[2048·t, 2048·t + 2048)` of the input, the three weight arrays whole,
  and writes back rows `[2048·t, 2048·t + 2048)` of the 32768 × 128 output.  A dense layer's row depends on the same
  row of its input alone, so what point `t` writes back is block `t` of ONE whole-array function,

      full = denseRelu (denseRelu (denseRelu X W0) W1) W2pad    (32768 × 128),

  of the arrays the region finds.  The sixteen blocks tile the output (row `r` is in block `r / 2048`), so the output
  array ends holding `full`.  After the region the host keeps columns `0 … 9`: entry `(r, j)` of the result is entry
  `(r, j)` of `full`, whose last layer reads row `j < 10` of the padded weight — row `j` of `W2`.  Hence the result is
  `denseRelu (denseRelu (denseRelu x W0) W1) W2` of the arguments.
-/
import proofs.«417671_j47390669144433_3_alg».proof.Proof.KernelBlock
import proofs.«417671_j47390669144433_3_alg».proof.Proof.KernelHost

set_option maxRecDepth 16384

noncomputable section

namespace Cert.KernelIdeal.KValue

open Cert.KernelIdeal Cert.KernelIdeal.Gen Cert.Lib
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ) (ρ : Dev nD → PrngReg)

/-! ## The blocks a point stages -/

abbrev xBlk (c : Dev nD) (t : Fin cfg0.N) : Vec Ideal S2048x784 .f32 := iblk m c 0 t
abbrev w0Blk (c : Dev nD) (t : Fin cfg0.N) : Vec Ideal S512x784 .bf16 := iblk m c 1 t
abbrev w1Blk (c : Dev nD) (t : Fin cfg0.N) : Vec Ideal S256x512 .bf16 := iblk m c 2 t
abbrev w2Blk (c : Dev nD) (t : Fin cfg0.N) : Vec Ideal S128x256 .bf16 := iblk m c 3 t

/-- The printed index maps, decided over the grid: the input's block moves with the output's along the rows, the
    weights' blocks are the whole arrays, and the output's block index stays in range. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every block row of the output is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- Row `p` of the input block at point `t` is row `2048·(block index) + p` of the input. -/
theorem xBlk_apply (c : Dev nD) (t : Fin cfg0.N) (p : Fin 2048) (r : Fin 32768)
    (hr : r.val = win0_4.index t (0 : Fin 2) * 2048 + p.val) (k : Fin 784) :
    xBlk m c t (ix2 p k) = xArr m c (ix2 r k) := by
  obtain ⟨e0, e1, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 784 + 1 * k.val = k.val; omega

/-- The weights' blocks are the weights. -/
theorem w0Blk_apply (c : Dev nD) (t : Fin cfg0.N) (n : Fin 512) (k : Fin 784) :
    w0Blk m c t (ix2 n k) = w0Arr m c (ix2 n k) := by
  obtain ⟨-, -, e0, e1, -⟩ := idx_facts t
  show V m c main_v0 (((cfg0.win 1).blk t).view.emb (ix2 n k)) = V m c main_v0 (ix2 n k)
  refine congrArg (V m c main_v0) (funext fun a => Fin.ext ?_)
  match a with
  | ⟨0, _⟩ => show win0_1.index t (0 : Fin 2) * 512 + 1 * n.val = n.val; omega
  | ⟨1, _⟩ => show win0_1.index t (1 : Fin 2) * 784 + 1 * k.val = k.val; omega

theorem w1Blk_apply (c : Dev nD) (t : Fin cfg0.N) (n : Fin 256) (k : Fin 512) :
    w1Blk m c t (ix2 n k) = w1Arr m c (ix2 n k) := by
  obtain ⟨-, -, -, -, e0, e1, -⟩ := idx_facts t
  show V m c main_v1 (((cfg0.win 2).blk t).view.emb (ix2 n k)) = V m c main_v1 (ix2 n k)
  refine congrArg (V m c main_v1) (funext fun a => Fin.ext ?_)
  match a with
  | ⟨0, _⟩ => show win0_2.index t (0 : Fin 2) * 256 + 1 * n.val = n.val; omega
  | ⟨1, _⟩ => show win0_2.index t (1 : Fin 2) * 512 + 1 * k.val = k.val; omega

theorem w2Blk_apply (c : Dev nD) (t : Fin cfg0.N) (n : Fin 128) (k : Fin 256) :
    w2Blk m c t (ix2 n k) = w2Arr m c (ix2 n k) := by
  obtain ⟨-, -, -, -, -, -, e0, e1, -⟩ := idx_facts t
  show V m c main_v5 (((cfg0.win 3).blk t).view.emb (ix2 n k)) = V m c main_v5 (ix2 n k)
  refine congrArg (V m c main_v5) (funext fun a => Fin.ext ?_)
  match a with
  | ⟨0, _⟩ => show win0_3.index t (0 : Fin 2) * 128 + 1 * n.val = n.val; omega
  | ⟨1, _⟩ => show win0_3.index t (1 : Fin 2) * 256 + 1 * k.val = k.val; omega

/-! ## One whole-array function -/

/-- The three layers of the arrays the region finds: what the output array ends holding. -/
def full (c : Dev nD) : S32768x128.Idx → EReal :=
  denseRelu (denseRelu (denseRelu (xArr m c) (w0Arr m c)) (w1Arr m c)) (w2Arr m c)

/-- Row `p` of the three layers of the blocks at point `t` is row `2048·(block index) + p` of `full`: each layer's row
    depends on the same row of the layer before alone. -/
theorem block_eq_full (c : Dev nD) (t : Fin cfg0.N) (p : Fin 2048) (q : Fin 128) (r : Fin 32768)
    (hr : r.val = win0_4.index t (0 : Fin 2) * 2048 + p.val) :
    denseRelu (denseRelu (denseRelu (xBlk m c t) (w0Blk m c t)) (w1Blk m c t)) (w2Blk m c t) (ix2 p q)
      = full m c (ix2 r q) :=
  denseRelu_congr (denseRelu (denseRelu (xBlk m c t) (w0Blk m c t)) (w1Blk m c t))
    (denseRelu (denseRelu (xArr m c) (w0Arr m c)) (w1Arr m c)) (w2Blk m c t) (w2Arr m c) p r q q
    (fun k2 => denseRelu_congr (denseRelu (xBlk m c t) (w0Blk m c t)) (denseRelu (xArr m c) (w0Arr m c))
      (w1Blk m c t) (w1Arr m c) p r k2 k2
      (fun k1 => denseRelu_congr (xBlk m c t) (xArr m c) (w0Blk m c t) (w0Arr m c) p r k1 k1
        (fun k0 => xBlk_apply m c t p r hr k0) (fun k0 => w0Blk_apply m c t k1 k0))
      (fun k1 => w1Blk_apply m c t k2 k1))
    (fun k2 => w2Blk_apply m c t q k2)

theorem hz : (![0, 0] : Fin 2 → Nat) = fun _ => 0 := funext fun a => by fin_cases a <;> rfl

/-- WHAT POINT `t` WRITES BACK is block `t` of `full`. -/
theorem flushed_eq (c : Dev nD) (t : Fin cfg0.N) :
    (dats m 0 c).flushed 4 t = ((cfg0.win 4).blk t).view.read (Elt Ideal) (full m c) := by
  show (cfg0.win 4).cut (grid0.coords t) ((dats m 0 c).after 4 t) = _
  rw [after0_4]
  unfold out0_4
  rw [View.canon_unit_zero hz]
  simp only [View.ld_unit_zero (S := S2048x784) hz, View.ld_unit_zero (S := S512x784) hz,
    View.ld_unit_zero (S := S256x512) hz, View.ld_unit_zero (S := S128x256) hz]
  rw [pay_eq]
  obtain ⟨-, -, -, -, -, -, -, -, e0, e1⟩ := idx_facts t
  funext y
  obtain ⟨p, q, rfl⟩ : ∃ (p : Fin 2048) (q : Fin 128), y = ix2 p q := ⟨y 0, y 1, eq_ix2 y⟩
  have hp : p.val < 2048 := p.isLt
  show denseRelu (denseRelu (denseRelu (xBlk m c t) (w0Blk m c t)) (w1Blk m c t)) (w2Blk m c t) (ix2 p q)
    = full m c (((cfg0.win 4).blk t).view.emb (ix2 p q))
  have hemb : ((cfg0.win 4).blk t).view.emb (ix2 p q)
      = ix2 (⟨win0_4.index t (0 : Fin 2) * 2048 + p.val, by omega⟩ : Fin 32768) q := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 128 + 1 * q.val = q.val; omega
  rw [hemb]
  exact block_eq_full m c t p q _ rfl

/-- An index of the output is in point `t`'s block iff each coordinate is in the block's range on its axis. -/
theorem mem_blk (t : Fin cfg0.N) (i : S32768x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v6).slice (win0_4.rect t)).set ↔ _
  rw [View.set_slice_whole, Rect.mem_set_unit]
  exact Iff.rfl

/-- Every index of the output is in some point's block: row `r` in block `r / 2048`. -/
theorem cover (i : S32768x128.Idx) :
    ∃ t : Fin cfg0.N, (cfg0.win 4).flush t = true ∧ i ∈ ((cfg0.win 4).blk t).view.set := by
  have hi0 : (i 0).val < 32768 := (i 0).isLt
  have hi1 : (i 1).val < 128 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- THE OUTPUT ARRAY after the region holds `full`. -/
theorem final (c : Dev nD) : (dats m 0 c).arrAt 4 cfg0.N = full m c :=
  (dats m 0 c).arrAt_eq_of_cover 4 (full m c) (fun t _ => flushed_eq m c t) cover

/-! ## After the region: the first ten columns -/

/-- The program's result: the first ten columns of the output array. -/
theorem tail_eq_slice (c : Dev nD) :
    Pipeline.afterTail₀ cfgs (dats m) 0 (V0 m) [hostOps1] c main_v7
      = extractStridedSlice S32768x10 ![0, 0] (full m c) slices_S32768x128_S32768x10_0_0 := by
  unfold Pipeline.afterTail₀
  show StableHlo.after hostOps1 _ (Proc.devRef .tc main_v7) = _
  after_results
  exact congrArg (fun v => extractStridedSlice S32768x10 ![0, 0] v slices_S32768x128_S32768x10_0_0)
    ((Pipeline.withArrays_arr spec0 launch0.win.arr_inj c (V0 m c) (fun w => (dats m 0 c).arrAt w cfg0.N) 4).trans (final m c))

/-- THE RESULT is the three layers of the arguments. -/
theorem result_eq (c : Dev nD) :
    Pipeline.afterTail₀ cfgs (dats m) 0 (V0 m) [hostOps1] c main_v7
      = denseRelu (denseRelu (denseRelu (m ((c : Thread nD τ).loc main_arg0)) (m ((c : Thread nD τ).loc main_arg1)))
          (m ((c : Thread nD τ).loc main_arg2))) (m ((c : Thread nD τ).loc main_arg3)) := by
  rw [tail_eq_slice]
  funext i
  obtain ⟨r, j, rfl⟩ : ∃ (r : Fin 32768) (j : Fin 10), i = ix2 r j := ⟨i 0, i 1, eq_ix2 i⟩
  have hj : j.val < 10 := j.isLt
  rw [extractStridedSlice_apply ![0, 0] (full m c) slices_S32768x128_S32768x10_0_0 (ix2 r j)
    (ix2 r (⟨j.val, by omega⟩ : Fin 128)) (fun a => by
      match a with
      | ⟨0, _⟩ => show r.val = 0 + r.val; omega
      | ⟨1, _⟩ => show j.val = 0 + j.val; omega)]
  unfold full
  rw [xArr_eq, w0Arr_eq, w1Arr_eq]
  exact denseRelu_congr _ _ (w2Arr m c) (m ((c : Thread nD τ).loc main_arg3)) r r (⟨j.val, by omega⟩ : Fin 128) j
    (fun _ => rfl) (fun k => w2Arr_apply m c (⟨j.val, by omega⟩ : Fin 128) hj k)

/-! ## The run, re-posted -/

/-- Every weakly fair execution of the kernel's program terminates with the result at the three layers of the
    arguments and every argument as it was. -/
theorem run_layers : θ_run defs (onTc (τ := τ) (main (F := Ideal))) ⟨m, fun _ => 0, ρ⟩ (fun r => ∀ c : Dev nD,
      r.2.mem ((c.tc : Thread nD τ).loc main_v7)
        = denseRelu (denseRelu (denseRelu (m ((c.tc : Thread nD τ).loc main_arg0)) (m ((c.tc : Thread nD τ).loc main_arg1)))
            (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v7 (Pipeline.mem_restRefs_of main_v7 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.LibLoopKept.lean ====
/-
  A buffer that a host loop never writes.

  A program's host side runs some stretches of operations, then a counted loop (each trip: the operations of the
  condition, then the stretches of the body), then the operations of the failing condition and some stretches
  after the loop.  The contents of every buffer at the end are that fold of the operations over the contents at
  launch.

  Each operation writes only its own result buffers.  So, reading the fold at a buffer `r`:

  * if `r` is outside a list `W` of buffers that holds every buffer the condition, the body and the stretches
    after the loop write, the loop changes nothing at `r`, however many trips it makes: at the end `r` holds what
    it held when the loop was entered (induction on the trip count);
  * if moreover the stretches before the loop write no buffer outside a list that `r` is not in, `r` ends holding
    what it held at launch.

  Membership of a buffer in a literal list of buffers is decided once, by comparing references.
-/
import Idealize.ShloMosaic.Lib.StableHlo.RunLoop

namespace Cert.Lib

open Idealize.ShloMosaic Idealize.ShloMosaic.StableHlo

variable {nD : Nat} {τ : Topo} {sig : RefSig} {F : FTy → Type}

/-- Every operation of the line writes only buffers of the list `W`. -/
abbrev WritesWithin (W : List (Ref sig .tc)) (ops : List (HloOp τ sig (Elt F))) : Prop :=
  ops.Forall fun op => op.writes ⊆ (W.map (Proc.devRef (τ := τ) .tc)).toFinset

/-- Stretches that write only buffers of `W` leave a buffer outside `W` as it was. -/
theorem afterL_kept {W : List (Ref sig .tc)} {r : Ref sig .tc} (hr : r ∉ W) :
    ∀ (items : List (List (HloOp τ sig (Elt F)))) (V : Valuation τ sig (Elt F)),
      (∀ ops ∈ items, WritesWithin W ops) → afterL items V (Proc.devRef .tc r) = V (Proc.devRef .tc r)
  | [], _, _ => rfl
  | ops :: rest, V, h => by
    rw [afterL_cons, afterL_kept hr rest _ (fun o ho => h o (List.mem_cons_of_mem _ ho)),
      after_of_writes_sub ops V (h ops List.mem_cons_self) hr]

/-- A loop whose condition and body write only buffers of `W` leaves a buffer outside `W`, before every run of
    its condition, as it was at the loop's entry. -/
theorem atTrip_kept {W : List (Ref sig .tc)} {r : Ref sig .tc} (hr : r ∉ W)
    (condOps : List (HloOp τ sig (Elt F))) (bodyI : List (List (HloOp τ sig (Elt F))))
    (W₀ : Dev nD → Valuation τ sig (Elt F)) (hc : WritesWithin W condOps) (hb : ∀ ops ∈ bodyI, WritesWithin W ops)
    (c : Dev nD) : ∀ k : ℕ, atTrip condOps bodyI W₀ k c (Proc.devRef .tc r) = W₀ c (Proc.devRef .tc r)
  | 0 => rfl
  | k + 1 => by
    rw [atTrip_succ, afterL_kept hr bodyI _ hb, after_of_writes_sub condOps _ hc hr, atTrip_kept hr condOps bodyI W₀ hc hb c k]

/-- At the program's end a buffer the loop and the stretches after it never write holds its contents at the
    loop's entry. -/
theorem finalContents_eq_entry {W : List (Ref sig .tc)} {r : Ref sig .tc} (hr : r ∉ W)
    (condOps : List (HloOp τ sig (Elt F))) (preI bodyI postI : List (List (HloOp τ sig (Elt F)))) (n : ℕ)
    (m : (ℓ : Loc nD τ sig) → Buf (Elt F) ℓ) (c : Dev nD)
    (hc : WritesWithin W condOps) (hb : ∀ ops ∈ bodyI, WritesWithin W ops) (hp : ∀ ops ∈ postI, WritesWithin W ops) :
    finalContents condOps preI bodyI postI n m c (Proc.devRef .tc r) = entryContents preI m c (Proc.devRef .tc r) := by
  show afterL postI (after condOps (atTrip condOps bodyI (entryContents preI m) n c)) (Proc.devRef .tc r) = _
  rw [afterL_kept hr postI _ hp, after_of_writes_sub condOps _ hc hr, atTrip_kept hr condOps bodyI _ hc hb c n]

/-- At the program's end a buffer nothing writes — neither the stretches before the loop (which write within
    `W'`) nor the loop and what follows it (within `W`) — holds its contents at launch. -/
theorem finalContents_eq_launch {W W' : List (Ref sig .tc)} {r : Ref sig .tc} (hr : r ∉ W) (hr' : r ∉ W')
    (condOps : List (HloOp τ sig (Elt F))) (preI bodyI postI : List (List (HloOp τ sig (Elt F)))) (n : ℕ)
    (m : (ℓ : Loc nD τ sig) → Buf (Elt F) ℓ) (c : Dev nD)
    (hc : WritesWithin W condOps) (hb : ∀ ops ∈ bodyI, WritesWithin W ops) (hp : ∀ ops ∈ postI, WritesWithin W ops)
    (hpre : ∀ ops ∈ preI, WritesWithin W' ops) :
    finalContents condOps preI bodyI postI n m c (Proc.devRef .tc r) = launchContents m c (Proc.devRef .tc r) := by
  rw [finalContents_eq_entry hr condOps preI bodyI postI n m c hc hb hp]
  exact afterL_kept hr' preI _ hpre

end Cert.Lib
-- ==== Proof.RefValue.lean ====
/-
  What the reference leaves in its result, and that it leaves its arguments alone.

  The reference computes three dense layers with rectification,

      m1 = relu (x · W0ᵀ),   m2 = relu (m1 · W1ᵀ),   m3 = relu (m2 · W2ᵀ),

  each a `dot_general` of the previous layer with the transposed weight followed by a maximum with zero, and then
  runs fifteen trips of an update loop.  The loop's body reads `m3` (through a carried copy of it) but every
  operation of the condition and of the body writes one of the loop's own buffers: the carried counter, the two
  carried layers `m1`, `m2`, and the body's intermediate values.  The buffer holding `m3`, which is the program's
  result, is written once, before the loop, and never again; the seven arguments are written by nothing.

  So at the end the result buffer holds what it held when the loop was entered — the three layers of the
  arguments — and each argument holds what it held at launch.  At the ideal values the three layers are
  `denseRelu (denseRelu (denseRelu x W0) W1) W2`: each contraction is a plain sum over the contracted axis.
-/
import proofs.«417671_j47390669144433_3_alg».proof.Proof.Gen.ReferenceIdeal.Run
import proofs.«417671_j47390669144433_3_alg».proof.Proof.LibLoopKept
import proofs.«417671_j47390669144433_3_alg».proof.Proof.LibDenseLayer

noncomputable section

namespace Cert.ReferenceIdeal.RefValue

open Cert.ReferenceIdeal Cert.ReferenceIdeal.Gen Cert.ReferenceIdeal.Value Cert.Lib
open Idealize.ShloMosaic Idealize.ShloMosaic.TcCoe Idealize.ShloMosaic.Tactic Idealize.ShloMosaic.StableHlo
open Idealize.ShloMosaic.ValueIdx Idealize.SL.Sem

variable {F : FTy → Type} [FloatOps F]

/-! ## Which buffers each part of the program writes -/

/-- Every buffer written before the loop: the three layers' values and the carried buffers' first contents. -/
abbrev writtenBefore : List (Ref sig .tc) :=
  [main_v0, main_v1, main_call0_cst, main_call0_v0, main_v2, main_v3, main_v4, main_call1_cst, main_call1_v0, main_v5,
   main_v6, main_v7, main_call2_cst, main_call2_v0, main_v8, main_c, main_c_0,
   main_v9_0, main_v9_1, main_v9_2, main_v9_3, main_v9_4, main_v9_5, main_v9_6, main_v9_7, main_v9_8]

/-- Every buffer the loop writes: the carried counter, trip count and two layers, and the values of its regions. -/
abbrev writtenByLoop : List (Ref sig .tc) :=
  [main_v9_5, main_v9_6, main_v9_7, main_v9_8, main_while0c_c_9, main_while0c_v10,
   main_while0b_call3_c, main_while0b_v10_0, main_while0b_call3_v1, main_while0b_call3_v2, main_while0b_call3_v3,
   main_while0b_call3_v4, main_while0b_call3_call0_cst, main_while0b_call3_call0_v0, main_while0b_call3_v5,
   main_while0b_call3_v6, main_while0b_call3_cst, main_while0b_call3_v7, main_while0b_call3_v8, main_while0b_call3_v9,
   main_while0b_call3_call1_cst, main_while0b_call3_call1_v0, main_while0b_v10_1, main_while0b_call3_v11,
   main_while0b_call3_v12, main_while0b_call3_v13, main_while0b_call3_v14, main_while0b_call3_call2_cst,
   main_while0b_call3_call2_v0, main_while0b_call3_v15, main_while0b_call3_v16, main_while0b_call3_cst_0,
   main_while0b_call3_v17, main_while0b_call3_v18, main_while0b_call3_v19, main_while0b_call3_call3_cst,
   main_while0b_call3_call3_v0, main_while0b_v10_2, main_while0b_c_9, main_while0b_v11]

/-- Each operation writes its one result buffer, which the list names: decided operation by operation. -/
macro "writes_within" : tactic => `(tactic|
  (refine List.forall_iff_forall_mem.mpr fun op hop => ?_
   fin_cases hop <;>
     exact Finset.singleton_subset_iff.mpr (List.mem_toFinset.mpr (List.mem_map_of_mem (by decide)))))

set_option maxRecDepth 100000 in
theorem w_hostOps0 : WritesWithin writtenBefore (hostOps0 (F := F)) := by writes_within
set_option maxRecDepth 100000 in
theorem w_hostOps0_1 : WritesWithin writtenBefore (hostOps0_1 (F := F)) := by writes_within
set_option maxRecDepth 100000 in
theorem w_hostOps0_2 : WritesWithin writtenBefore (hostOps0_2 (F := F)) := by writes_within
set_option maxRecDepth 100000 in
theorem w_hostOps0_3 : WritesWithin writtenBefore (hostOps0_3 (F := F)) := by writes_within
set_option maxRecDepth 100000 in
theorem w_hostOps0_4 : WritesWithin writtenBefore (hostOps0_4 (F := F)) := by writes_within
set_option maxRecDepth 100000 in
theorem w_hostOps0_5 : WritesWithin writtenBefore (hostOps0_5 (F := F)) := by writes_within
set_option maxRecDepth 100000 in
theorem w_hostOps0_6 : WritesWithin writtenBefore (hostOps0_6 (F := F)) := by writes_within
set_option maxRecDepth 100000 in
theorem w_condOps : WritesWithin writtenByLoop (condOps (F := F)) := by writes_within
set_option maxRecDepth 100000 in
set_option maxHeartbeats 4000000 in
theorem w_while0Ops0 : WritesWithin writtenByLoop (while0Ops0 (F := F)) := by writes_within
set_option maxRecDepth 100000 in
theorem w_while0Ops0_1 : WritesWithin writtenByLoop (while0Ops0_1 (F := F)) := by writes_within

theorem w_pre : ∀ ops ∈ (preI (F := F)), WritesWithin writtenBefore ops :=
  List.forall_mem_cons.mpr ⟨w_hostOps0, List.forall_mem_cons.mpr ⟨w_hostOps0_1, List.forall_mem_cons.mpr ⟨w_hostOps0_2,
    List.forall_mem_cons.mpr ⟨w_hostOps0_3, List.forall_mem_cons.mpr ⟨w_hostOps0_4, List.forall_mem_cons.mpr ⟨w_hostOps0_5,
      List.forall_mem_cons.mpr ⟨w_hostOps0_6, fun _ h => nomatch h⟩⟩⟩⟩⟩⟩⟩
theorem w_body : ∀ ops ∈ (bodyI (F := F)), WritesWithin writtenByLoop ops :=
  List.forall_mem_cons.mpr ⟨w_while0Ops0, List.forall_mem_cons.mpr ⟨w_while0Ops0_1, fun _ h => nomatch h⟩⟩
theorem w_post : ∀ ops ∈ (postI (F := F)), WritesWithin writtenByLoop ops := fun _ h => nomatch h

variable (m : (ℓ : Loc nD τ sig) → Buf (Elt F) ℓ) (ρ : Dev nD → PrngReg)

/-! ## The result buffer and the arguments at the program's end -/

/-- The loop never writes the result buffer: at the end it holds what it held when the loop was entered. -/
theorem final_result (c : Dev nD) :
    finalContents condOps preI bodyI postI 15 m c (Proc.devRef .tc main_v8) = entryContents preI m c (Proc.devRef .tc main_v8) :=
  finalContents_eq_entry (W := writtenByLoop) (by decide) condOps preI bodyI postI 15 m c w_condOps w_body w_post

/-- Nothing writes an argument: at the end it holds what it held at launch. -/
theorem final_arg (c : Dev nD) (r : Ref sig .tc) (h : r ∉ writtenByLoop) (h' : r ∉ writtenBefore) :
    finalContents condOps preI bodyI postI 15 m c (Proc.devRef .tc r) = m ((c.tc : Thread nD τ).loc r) :=
  finalContents_eq_launch (W := writtenByLoop) (W' := writtenBefore) h h' condOps preI bodyI postI 15 m c
    w_condOps w_body w_post w_pre

/-! ## The three layers as printed, and as plain sums -/

/-- The value the operations before the loop leave in the result buffer, as a term of the arguments. -/
def layers (x : FVec F S32768x784 .f32) (w0 : FVec F S512x784 .f32) (w1 : FVec F S256x512 .f32) (w2 : FVec F S10x256 .f32) :
    FVec F S32768x10 .f32 :=
  maximumf
    (Host.dotGeneral dot_S32768x256_S256x10_S32768x10_1_0_0_1_n_n none
      (maximumf
        (Host.dotGeneral dot_S32768x512_S512x256_S32768x256_1_0_0_1_n_n none
          (maximumf
            (Host.dotGeneral dot_S32768x784_S784x512_S32768x512_1_0_0_1_n_n none x
              (transpose S784x512 [1, 0] w0 transposes_S512x784_S784x512_1_0))
            (broadcastInDim S32768x512 ![] bcast_S_S32768x512 (constant S_ .f32 0x00000000#32)))
          (transpose S512x256 [1, 0] w1 transposes_S256x512_S512x256_1_0))
        (broadcastInDim S32768x256 ![] bcast_S_S32768x256 (constant S_ .f32 0x00000000#32)))
      (transpose S256x10 [1, 0] w2 transposes_S10x256_S256x10_1_0))
    (broadcastInDim S32768x10 ![] bcast_S_S32768x10 (constant S_ .f32 0x00000000#32))

set_option maxRecDepth 100000 in
/-- When the loop is entered the result buffer holds the three layers of the arguments. -/
theorem entry_result (c : Dev nD) :
    entryContents preI m c (Proc.devRef .tc main_v8)
      = layers (m ((c.tc : Thread nD τ).loc main_arg0)) (m ((c.tc : Thread nD τ).loc main_arg1))
          (m ((c.tc : Thread nD τ).loc main_arg2)) (m ((c.tc : Thread nD τ).loc main_arg3)) := by
  simp only [entryContents, afterL_cons, afterL_nil]
  after_results
  rfl

/-! ### The three contractions' operand indices, coordinate by coordinate -/

abbrev D1 := dot_S32768x784_S784x512_S32768x512_1_0_0_1_n_n
abbrev D2 := dot_S32768x512_S512x256_S32768x256_1_0_0_1_n_n
abbrev D3 := dot_S32768x256_S256x10_S32768x10_1_0_0_1_n_n

theorem D1_rank : D1.contr.rank = 1 := rfl
theorem D2_rank : D2.contr.rank = 1 := rfl
theorem D3_rank : D3.contr.rank = 1 := rfl
theorem D1_size : D1.contr.size ⟨0, by decide⟩ = 784 := rfl
theorem D2_size : D2.contr.size ⟨0, by decide⟩ = 512 := rfl
theorem D3_size : D3.contr.size ⟨0, by decide⟩ = 256 := rfl

theorem D1_l0 (j : S32768x512.Idx) (q : D1.contr.Idx) : (D1.lhsIdx j q 0).val = (j 0).val := by
  simp [DotDims.lhsIdx, D1, dot_S32768x784_S784x512_S32768x512_1_0_0_1_n_n]; rfl
theorem D1_l1 (j : S32768x512.Idx) (q : D1.contr.Idx) : (D1.lhsIdx j q 1).val = (q ⟨0, by decide⟩).val := by
  simp [DotDims.lhsIdx, D1, dot_S32768x784_S784x512_S32768x512_1_0_0_1_n_n]; rfl
theorem D1_r0 (j : S32768x512.Idx) (q : D1.contr.Idx) : (D1.rhsIdx j q 0).val = (q ⟨0, by decide⟩).val := by
  simp [DotDims.rhsIdx, D1, dot_S32768x784_S784x512_S32768x512_1_0_0_1_n_n]; rfl
theorem D1_r1 (j : S32768x512.Idx) (q : D1.contr.Idx) : (D1.rhsIdx j q 1).val = (j 1).val := by
  simp [DotDims.rhsIdx, D1, dot_S32768x784_S784x512_S32768x512_1_0_0_1_n_n]; rfl

theorem D2_l0 (j : S32768x256.Idx) (q : D2.contr.Idx) : (D2.lhsIdx j q 0).val = (j 0).val := by
  simp [DotDims.lhsIdx, D2, dot_S32768x512_S512x256_S32768x256_1_0_0_1_n_n]; rfl
theorem D2_l1 (j : S32768x256.Idx) (q : D2.contr.Idx) : (D2.lhsIdx j q 1).val = (q ⟨0, by decide⟩).val := by
  simp [DotDims.lhsIdx, D2, dot_S32768x512_S512x256_S32768x256_1_0_0_1_n_n]; rfl
theorem D2_r0 (j : S32768x256.Idx) (q : D2.contr.Idx) : (D2.rhsIdx j q 0).val = (q ⟨0, by decide⟩).val := by
  simp [DotDims.rhsIdx, D2, dot_S32768x512_S512x256_S32768x256_1_0_0_1_n_n]; rfl
theorem D2_r1 (j : S32768x256.Idx) (q : D2.contr.Idx) : (D2.rhsIdx j q 1).val = (j 1).val := by
  simp [DotDims.rhsIdx, D2, dot_S32768x512_S512x256_S32768x256_1_0_0_1_n_n]; rfl

theorem D3_l0 (j : S32768x10.Idx) (q : D3.contr.Idx) : (D3.lhsIdx j q 0).val = (j 0).val := by
  simp [DotDims.lhsIdx, D3, dot_S32768x256_S256x10_S32768x10_1_0_0_1_n_n]; rfl
theorem D3_l1 (j : S32768x10.Idx) (q : D3.contr.Idx) : (D3.lhsIdx j q 1).val = (q ⟨0, by decide⟩).val := by
  simp [DotDims.lhsIdx, D3, dot_S32768x256_S256x10_S32768x10_1_0_0_1_n_n]; rfl
theorem D3_r0 (j : S32768x10.Idx) (q : D3.contr.Idx) : (D3.rhsIdx j q 0).val = (q ⟨0, by decide⟩).val := by
  simp [DotDims.rhsIdx, D3, dot_S32768x256_S256x10_S32768x10_1_0_0_1_n_n]; rfl
theorem D3_r1 (j : S32768x10.Idx) (q : D3.contr.Idx) : (D3.rhsIdx j q 1).val = (j 1).val := by
  simp [DotDims.rhsIdx, D3, dot_S32768x256_S256x10_S32768x10_1_0_0_1_n_n]; rfl

/-- At the ideal values the printed three layers are `relu (relu (relu (x · W0ᵀ) · W1ᵀ) · W2ᵀ)` as plain sums. -/
theorem layers_eq (x : FVec Ideal S32768x784 .f32) (w0 : FVec Ideal S512x784 .f32) (w1 : FVec Ideal S256x512 .f32)
    (w2 : FVec Ideal S10x256 .f32) :
    layers (F := Ideal) x w0 w1 w2 = denseRelu (denseRelu (denseRelu x w0) w1) w2 := by
  unfold layers
  rw [dot_transpose_relu_eq D1 D1_rank D1_size D1_l0 D1_l1 D1_r0 D1_r1,
    dot_transpose_relu_eq D2 D2_rank D2_size D2_l0 D2_l1 D2_r0 D2_r1,
    dot_transpose_relu_eq D3 D3_rank D3_size D3_l0 D3_l1 D3_r0 D3_r1]

/-! ## The run, re-posted -/

/-- Every weakly fair execution of the reference terminates with the result buffer at the three layers of the
    arguments and every argument as it was. -/
theorem run_layers : θ_run (defs (F := F)) (onTc (τ := τ) (main (F := F))) ⟨m, fun _ => 0, ρ⟩ (fun r => ∀ c : Dev nD,
      r.2.mem ((c.tc : Thread nD τ).loc main_v8)
        = layers (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := F)) _ _).mono (fun r h c =>
    ⟨(h c main_v8 rfl).trans ((final_result m c).trans (entry_result m c)),
     (h c main_arg0 rfl).trans (final_arg m c main_arg0 (by decide) (by decide)),
     (h c main_arg1 rfl).trans (final_arg m c main_arg1 (by decide) (by decide)),
     (h c main_arg2 rfl).trans (final_arg m c main_arg2 (by decide) (by decide)),
     (h c main_arg3 rfl).trans (final_arg m c main_arg3 (by decide) (by decide)),
     (h c main_arg4 rfl).trans (final_arg m c main_arg4 (by decide) (by decide)),
     (h c main_arg5 rfl).trans (final_arg m c main_arg5 (by decide) (by decide)),
     (h c main_arg6 rfl).trans (final_arg m c main_arg6 (by decide) (by decide))⟩)
    (run_fold m ρ)

end Cert.ReferenceIdeal.RefValue

end
-- ==== Proof.lean ====
/-
  A three-layer perceptron with rectification, computed by a tiled kernel, against its plain reference.

  Both programs compute, from an input `x` (32768 × 784) and weights `W0` (512 × 784), `W1` (256 × 512), `W2` (10 × 256),

      m3 = relu (relu (relu (x · W0ᵀ) · W1ᵀ) · W2ᵀ)      (32768 × 10),

  where at the ideal values every product is the plain sum over the contracted axis and `relu` is the maximum with
  zero.

  * The kernel converts the weights to a narrower float format (the identity at the ideal values), pads `W2` with
    118 zero rows, computes the three layers on sixteen blocks of 2048 rows of `x`, and keeps the first ten columns
    of the 128 it produced.  A layer's row depends on the same row of its input alone, so the sixteen blocks are
    the blocks of one whole-array function; column `j < 10` of the last layer reads row `j` of the padded weight,
    which is row `j` of `W2`.
  * The reference computes the three layers and then iterates an update of `m1` and `m2` fifteen times; the update
    reads `m3` and never writes it, and `m3` is what the reference returns.  The three biases are arguments that
    only the update reads.

  So the two results are one function of the arguments, entry by entry, with no law of arithmetic beyond
  `0 + s = s` used; in particular the finiteness of the inputs is not needed.

  The frames of the two kernel programs are the generated ones; the reference's frame is its run with the result
  forgotten; the idealization rewrote no operation.
-/
import proofs.«417671_j47390669144433_3_alg».proof.Defs
import proofs.«417671_j47390669144433_3_alg».proof.Proof.Gen.Kernel
import proofs.«417671_j47390669144433_3_alg».proof.Proof.Gen.Kernel.Skeleton
import proofs.«417671_j47390669144433_3_alg».proof.Proof.Gen.Kernel.Launch
import proofs.«417671_j47390669144433_3_alg».proof.Proof.Gen.Kernel.Points
import proofs.«417671_j47390669144433_3_alg».proof.Proof.Gen.Kernel.Frame
import proofs.«417671_j47390669144433_3_alg».proof.Proof.Gen.KernelIdeal
import proofs.«417671_j47390669144433_3_alg».proof.Proof.Gen.KernelIdeal.Skeleton
import proofs.«417671_j47390669144433_3_alg».proof.Proof.Gen.KernelIdeal.Launch
import proofs.«417671_j47390669144433_3_alg».proof.Proof.Gen.KernelIdeal.Points
import proofs.«417671_j47390669144433_3_alg».proof.Proof.Gen.KernelIdeal.Frame
import proofs.«417671_j47390669144433_3_alg».proof.Proof.Gen.ReferenceIdeal
import proofs.«417671_j47390669144433_3_alg».proof.Proof.Gen.Pre_finite_inputs
import proofs.«417671_j47390669144433_3_alg».proof.Proof.Gen.ReferenceIdeal.Run
import proofs.«417671_j47390669144433_3_alg».proof.Proof.KernelArray
import proofs.«417671_j47390669144433_3_alg».proof.Proof.RefValue
import Idealize.ShloMosaic.Adequacy
import Idealize.ShloMosaic.Init

noncomputable section

namespace Cert.Proof

open Idealize.ShloMosaic Idealize.SL.Sem Cert.Lib

theorem frame_kernel : Cert.frame_Kernel := fun m ρ _ => Cert.Kernel.Gen.frame m ρ

theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.RefValue.run_layers (F := Ideal) m ρ)

/-- The idealization rewrote nothing. -/
theorem preserves : Cert.preserves_Kernel_KernelIdeal := trivial

/-- Both programs end with the three layers of the arguments in their result: the kernel's blocks assembled and
    sliced, the reference's value untouched by its loop and read as plain sums. -/
theorem algebraic : Cert.algebraic_KernelIdeal_ReferenceIdeal := by
  intro m ρ m' ρ' _ hagree
  refine ⟨fun c => denseRelu (denseRelu (denseRelu
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)),
    Cert.KernelIdeal.KValue.run_layers m ρ, ?_⟩
  refine (θ_run Cert.ReferenceIdeal.defs _ _).mono (fun _ h c => ⟨(h c).1.trans ?_, (h c).2⟩)
    (Cert.ReferenceIdeal.RefValue.run_layers (F := Ideal) m' ρ')
  rw [Cert.ReferenceIdeal.RefValue.layers_eq, (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
